-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x6272 : Shape := ⟨2, ![64, 6272]⟩
abbrev S12544x6272 : Shape := ⟨2, ![12544, 6272]⟩
abbrev S12544 : Shape := ⟨1, ![12544]⟩
abbrev S_ : Shape := ⟨0, ![]⟩

class Facts : Prop where
  bcast_S_S64x6272 : S_.BroadcastsInDim S64x6272 (![] : Fin 0 → Fin S64x6272.rank)
  reducesTo_S64x6272_S_d0_1 : S64x6272.ReducesTo [0, 1] S_
  h_S_ : 0 < S_.numel
  bcast_S_S12544x6272 : S_.BroadcastsInDim S12544x6272 (![] : Fin 0 → Fin S12544x6272.rank)
  reducesTo_S12544x6272_S_d0_1 : S12544x6272.ReducesTo [0, 1] S_
  bcast_S_S12544 : S_.BroadcastsInDim S12544 (![] : Fin 0 → Fin S12544.rank)
  reducesTo_S12544_S_d0 : S12544.ReducesTo [0] S_

variable [Facts]

def fn {F : FTy → Type} [FloatOps F] (main_arg0 : FVec F S64x6272 .f32) (main_arg1 : FVec F S12544x6272 .f32) (main_arg2 : FVec F S12544 .f32) : IVec S_ 1 :=
  let main_v0 : FVec F S64x6272 .f32 := Host.absf main_arg0
  let main_cst : FVec F S_ .f32 := constant S_ .f32 0x7F800000#32
  let main_v1 : FVec F S64x6272 .f32 := broadcastInDim S64x6272 ![] bcast_S_S64x6272 main_cst
  let main_v2 : IVec S64x6272 1 := cmpf .olt main_v0 main_v1
  let main_c : IVec S_ 1 := constantI S_ 1 1#1
  let main_v3 : IVec S_ 1 := (fun x v => Host.reduce IntOp.andi x v reducesTo_S64x6272_S_d0_1 h_S_) main_v2 main_c
  let main_v4 : FVec F S12544x6272 .f32 := Host.absf main_arg1
  let main_cst_0 : FVec F S_ .f32 := constant S_ .f32 0x7F800000#32
  let main_v5 : FVec F S12544x6272 .f32 := broadcastInDim S12544x6272 ![] bcast_S_S12544x6272 main_cst_0
  let main_v6 : IVec S12544x6272 1 := cmpf .olt main_v4 main_v5
  let main_c_1 : IVec S_ 1 := constantI S_ 1 1#1
  let main_v7 : IVec S_ 1 := (fun x v => Host.reduce IntOp.andi x v reducesTo_S12544x6272_S_d0_1 h_S_) main_v6 main_c_1
  let main_v8 : IVec S_ 1 := andi main_v3 main_v7
  let main_v9 : FVec F S12544 .f32 := Host.absf main_arg2
  let main_cst_2 : FVec F S_ .f32 := constant S_ .f32 0x7F800000#32
  let main_v10 : FVec F S12544 .f32 := broadcastInDim S12544 ![] bcast_S_S12544 main_cst_2
  let main_v11 : IVec S12544 1 := cmpf .olt main_v9 main_v10
  let main_c_3 : IVec S_ 1 := constantI S_ 1 1#1
  let main_v12 : IVec S_ 1 := (fun x v => Host.reduce IntOp.andi x v reducesTo_S12544_S_d0 h_S_) main_v11 main_c_3
  let main_v13 : IVec S_ 1 := andi main_v8 main_v12
  main_v13
-- ==== Kernel.lean ====
abbrev S64x6272 : Shape := ⟨2, ![64, 6272]⟩
abbrev S12544x6272 : Shape := ⟨2, ![12544, 6272]⟩
abbrev S12544 : Shape := ⟨1, ![12544]⟩
abbrev S1x12544 : Shape := ⟨2, ![1, 12544]⟩
abbrev S64x12544 : Shape := ⟨2, ![64, 12544]⟩
abbrev S256x6272 : Shape := ⟨2, ![256, 6272]⟩
abbrev S1x256 : Shape := ⟨2, ![1, 256]⟩
abbrev S64x256 : Shape := ⟨2, ![64, 256]⟩

abbrev nBuf : Space → Nat
  | .hbm => 6
  | .vmem => 7
  | .smem => 0
  | _ => 0

abbrev bufTy : (tb : Table) → Fin (tcTables nBuf tb) → BufTy
  | .hbm, ⟨0, _⟩ => ⟨S64x6272, .f32⟩
  | .hbm, ⟨1, _⟩ => ⟨S12544x6272, .f32⟩
  | .hbm, ⟨2, _⟩ => ⟨S12544, .f32⟩
  | .hbm, ⟨3, _⟩ => ⟨S1x12544, .f32⟩
  | .hbm, ⟨4, _⟩ => ⟨S64x6272, .bf16⟩
  | .hbm, ⟨5, _⟩ => ⟨S64x12544, .f32⟩
  | .local _ .vmem, ⟨0, _⟩ => ⟨S64x6272, .bf16⟩
  | .local _ .vmem, ⟨1, _⟩ => ⟨S256x6272, .f32⟩
  | .local _ .vmem, ⟨2, _⟩ => ⟨S256x6272, .f32⟩
  | .local _ .vmem, ⟨3, _⟩ => ⟨S1x256, .f32⟩
  | .local _ .vmem, ⟨4, _⟩ => ⟨S1x256, .f32⟩
  | .local _ .vmem, ⟨5, _⟩ => ⟨S64x256, .f32⟩
  | .local _ .vmem, ⟨6, _⟩ => ⟨S64x256, .f32⟩
  | _, _ => ⟨S64x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x6272 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S12544_S1x12544 : S12544.ShapeCasts S1x12544
  bitsLt_bf16_f32 : FTy.bits .bf16 < FTy.bits .f32
  inb_S64x6272_S64x6272_0_0 : ∀ a, (![0, 0] : Fin 2 → Nat) a + S64x6272.size a ≤ S64x6272.size a
  h_S64x6272 : 0 < S64x6272.numel
  shapeCasts_S64x6272_S64x6272 : S64x6272.ShapeCasts S64x6272
  inb_S256x6272_S256x6272_0_0 : ∀ a, (![0, 0] : Fin 2 → Nat) a + S256x6272.size a ≤ S256x6272.size a
  h_S256x6272 : 0 < S256x6272.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x6272_S256x6272_S64x256_1_1_0_0_n_n_wf : DotDims.WF S64x6272 S256x6272 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x6272.size a ≤ S64x6272.size a
  hwx0_0 : ∀ i : grid0.Coords, EltTy.bits .bf16 = 32 ∨ (Rect.block (s := S64x6272) S64x6272.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6272.size a ≤ S12544x6272.size a
  hwx0_1 : ∀ i : grid0.Coords, EltTy.bits .f32 = 32 ∨ (Rect.block (s := S12544x6272) S256x6272.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x12544.size a
  hwx0_2 : ∀ i : grid0.Coords, EltTy.bits .f32 = 32 ∨ (Rect.block (s := S1x12544) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x12544.size a
  hwx0_3 : ∀ i : grid0.Coords, EltTy.bits .f32 = 32 ∨ (Rect.block (s := S64x12544) S64x256.size (cc0_transform_3 i) (hinb0_3 i)).WholeWords (EltTy.packing .f32)

variable [Facts₀]

def dot_S64x6272_S256x6272_S64x256_1_1_0_0_n_n : DotDims S64x6272 S256x6272 S64x256 where
  lhsContracting := [1]
  rhsContracting := [1]
  lhsNonContracting := [0]
  rhsNonContracting := [0]
  lhsBatch := []
  rhsBatch := []
  wf := dot_S64x6272_S256x6272_S64x256_1_1_0_0_n_n_wf

abbrev win0_0 : Pipeline.Window sig grid0 :=
  Pipeline.Window.ofSpec (Memref.whole main_v1) S64x6272.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x6272.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x6272 : Shape := ⟨2, ![64, 6272]⟩
abbrev S12544x6272 : Shape := ⟨2, ![12544, 6272]⟩
abbrev S12544 : Shape := ⟨1, ![12544]⟩
abbrev S6272x12544 : Shape := ⟨2, ![6272, 12544]⟩
abbrev S64x12544 : Shape := ⟨2, ![64, 12544]⟩
abbrev S1x12544 : Shape := ⟨2, ![1, 12544]⟩

abbrev nBuf : Space → Nat
  | .hbm => 8
  | .vmem => 0
  | .smem => 0
  | _ => 0

abbrev bufTy : (tb : Table) → Fin (tcTables nBuf tb) → BufTy
  | .hbm, ⟨0, _⟩ => ⟨S64x6272, .f32⟩
  | .hbm, ⟨1, _⟩ => ⟨S12544x6272, .f32⟩
  | .hbm, ⟨2, _⟩ => ⟨S12544, .f32⟩
  | .hbm, ⟨3, _⟩ => ⟨S6272x12544, .f32⟩
  | .hbm, ⟨4, _⟩ => ⟨S64x12544, .f32⟩
  | .hbm, ⟨5, _⟩ => ⟨S1x12544, .f32⟩
  | .hbm, ⟨6, _⟩ => ⟨S64x12544, .f32⟩
  | .hbm, ⟨7, _⟩ => ⟨S64x12544, .f32⟩
  | _, _ => ⟨S64x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S12544x6272_S6272x12544_1_0 : S12544x6272.Transposes [1, 0] S6272x12544
  bcast_S12544_S1x12544_1 : S12544.BroadcastsInDim S1x12544 (![1] : Fin 1 → Fin S1x12544.rank)
  bcast_S1x12544_S64x12544_0_1 : S1x12544.BroadcastsInDim S64x12544 (![0, 1] : Fin 2 → Fin S64x12544.rank)
  dot_S64x6272_S6272x12544_S64x12544_1_0_0_1_n_n_wf : DotDims.WF S64x6272 S6272x12544 S64x12544 [1] [0] [0] [1] [] []

variable [Facts₀]

def dot_S64x6272_S6272x12544_S64x12544_1_0_0_1_n_n : DotDims S64x6272 S6272x12544 S64x12544 where
  lhsContracting := [1]
  rhsContracting := [0]
  lhsNonContracting := [0]
  rhsNonContracting := [1]
  lhsBatch := []
  rhsBatch := []
  wf := dot_S64x6272_S6272x12544_S64x12544_1_0_0_1_n_n_wf

class Facts : Prop extends Facts₀ where

variable [Facts]
-- ==== Proof.Dense.lean ====
/-
  The function both programs compute: a dense layer. For activations `x` (64 rows of 6272 entries), weights `w`
  (12544 rows of 6272 entries) and a bias `b` (12544 entries), entry (p, n) of the result is the inner product of
  row p of `x` with row n of `w`, plus `b n`:
      dense x w b (p, n) = (∑ k, x (p, k) · w (n, k)) + b n
  over the extended reals. Each product has the activation on the left and the weight on the right, and the bias
  is added last, on the right: this is the order in which both the kernel and the reference form the entry, so no
  law of the extended reals is needed to join them.
-/
import Idealize.ShloMosaic.PureOps.Ideal
import Idealize.ShloMosaic.Lib.ValueIdx

noncomputable section

open Idealize.ShloMosaic Idealize.ShloMosaic.ValueIdx

namespace Cert.Dense

/-- Entry (p, n): row p of the activations against row n of the weights, plus the bias at n. -/
def dense (x : FVec Ideal ⟨2, ![64, 6272]⟩ .f32) (w : FVec Ideal ⟨2, ![12544, 6272]⟩ .f32)
    (b : FVec Ideal ⟨1, ![12544]⟩ .f32) : FVec Ideal ⟨2, ![64, 12544]⟩ .f32 :=
  fun i => (∑ k : Fin 6272, x (ix2 (i 0) k) * w (ix2 (i 1) k)) + b (ix1 (i 1))

theorem dense_apply (x : FVec Ideal ⟨2, ![64, 6272]⟩ .f32) (w : FVec Ideal ⟨2, ![12544, 6272]⟩ .f32)
    (b : FVec Ideal ⟨1, ![12544]⟩ .f32) (p : Fin 64) (n : Fin 12544) :
    dense x w b (ix2 p n) = (∑ k : Fin 6272, x (ix2 p k) * w (ix2 n k)) + b (ix1 n) := rfl

end Cert.Dense

end
-- ==== Proof.RefDense.lean ====
/-
  The reference is the dense layer. Its last stage adds, entry by entry, the product of the activations with the
  TRANSPOSED weights and the bias broadcast along the rows. Read at entry (p, n): the product's factor k is
  x (p, k) · wᵀ (k, n), and the transposed weights at (k, n) are the weights at (n, k); the broadcast bias at (p, n)
  is the bias at n. That is `dense` at (p, n), term for term.
-/
import proofs.«414847_j19851338842267_3_alg».proof.Proof.Gen.ReferenceIdeal.Read
import proofs.«414847_j19851338842267_3_alg».proof.Proof.Dense

noncomputable section

open Idealize.ShloMosaic Idealize.ShloMosaic.ValueIdx

namespace Cert.ReferenceIdeal.RefDense

open Cert.ReferenceIdeal Cert.ReferenceIdeal.Gen Cert.ReferenceIdeal.Read Cert.Dense

/-- The product's left operand is read at (p, k). -/
theorem left_index (i : S64x12544.Idx) (k : Fin 6272) : lidx_main_v1 i k = ix2 (i 0) k :=
  funext fun a => Fin.ext (by match a with | ⟨0, _⟩ => rfl | ⟨1, _⟩ => rfl)

/-- The product's right operand, the transposed weights at (k, n), is the weights at (n, k). -/
theorem right_index (i : S64x12544.Idx) (k : Fin 6272) : idx_main_v0 (ridx_main_v1 i k) = ix2 (i 1) k :=
  funext fun a => Fin.ext (by match a with | ⟨0, _⟩ => rfl | ⟨1, _⟩ => rfl)

/-- The bias broadcast to [1, 12544] and then along the 64 rows, read at (p, n), is the bias at n. -/
theorem bias_index (i : S64x12544.Idx) : idx_main_v2 (idx_main_v3 i) = ix1 (i 1) :=
  funext fun a => Fin.ext (by match a with | ⟨0, _⟩ => rfl)

/-- The reference's result, as a function of its three arguments, is `dense`. -/
theorem reference_is_dense (x0 : FVec Ideal S64x6272 .f32) (x1 : FVec Ideal S12544x6272 .f32) (x2 : FVec Ideal S12544 .f32) :
    val_main_v4 (F := Ideal) x0 x1 x2 = dense x0 x1 x2 := by
  funext i
  rw [val_main_v4_apply, val_main_v1_apply, val_main_v3_apply, val_main_v2_apply]
  simp only [val_main_v0_apply, left_index, right_index, bias_index]
  rfl

end Cert.ReferenceIdeal.RefDense

end
-- ==== Proof.Tile.lean ====
/-
  One tile of the kernel. At a grid point the body loads the whole activation block `a` (64 × 6272), a block `b` of
  256 weight rows (256 × 6272) and the matching 256 bias entries `β` (1 × 256), and stores

      a · bᵀ + β        (a 64 × 256 tile).

  Over the extended reals the narrowing of the weights' format is the identity and the matrix product into a zero
  accumulator is the plain sum over the 6272 contracted positions, so entry (p, q) of the tile is
      (∑ k, a (p, k) · b (q, k)) + β (0, q).
-/
import proofs.«414847_j19851338842267_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen

/-! ## Where the product reads its operands

The product contracts axis 1 of both operands: the left operand is read at (row of the result, k), the right one at
(column of the result, k). -/

theorem lhs_row (i : S64x256.Idx) (q : dot_S64x6272_S256x6272_S64x256_1_1_0_0_n_n.contr.Idx) :
    (dot_S64x6272_S256x6272_S64x256_1_1_0_0_n_n.lhsIdx i q 0).val = (i 0).val := by
  unfold DotDims.lhsIdx
  rw [dif_neg (show ¬(0 : Fin S64x6272.rank) ∈ dot_S64x6272_S256x6272_S64x256_1_1_0_0_n_n.lhsBatch by decide), dif_pos (show (0 : Fin S64x6272.rank) ∈ dot_S64x6272_S256x6272_S64x256_1_1_0_0_n_n.lhsNonContracting by decide)]
  rfl

theorem lhs_contracted (i : S64x256.Idx) (q : dot_S64x6272_S256x6272_S64x256_1_1_0_0_n_n.contr.Idx) :
    (dot_S64x6272_S256x6272_S64x256_1_1_0_0_n_n.lhsIdx i q 1).val = (q ⟨0, by decide⟩).val :=
  dot_S64x6272_S256x6272_S64x256_1_1_0_0_n_n.lhsIdx_val_of_single rfl i q

theorem rhs_row (i : S64x256.Idx) (q : dot_S64x6272_S256x6272_S64x256_1_1_0_0_n_n.contr.Idx) :
    (dot_S64x6272_S256x6272_S64x256_1_1_0_0_n_n.rhsIdx i q 0).val = (i 1).val := by
  unfold DotDims.rhsIdx
  rw [dif_neg (show ¬(0 : Fin S256x6272.rank) ∈ dot_S64x6272_S256x6272_S64x256_1_1_0_0_n_n.rhsBatch by decide), dif_pos (show (0 : Fin S256x6272.rank) ∈ dot_S64x6272_S256x6272_S64x256_1_1_0_0_n_n.rhsNonContracting by decide)]
  rfl

theorem rhs_contracted (i : S64x256.Idx) (q : dot_S64x6272_S256x6272_S64x256_1_1_0_0_n_n.contr.Idx) :
    (dot_S64x6272_S256x6272_S64x256_1_1_0_0_n_n.rhsIdx i q 1).val = (q ⟨0, by decide⟩).val :=
  dot_S64x6272_S256x6272_S64x256_1_1_0_0_n_n.rhsIdx_val_of_single rfl i q

/-- The product into the zero accumulator, at entry `i`: the sum over the contracted position `k` of the left operand
    at (i 0, k) times the right operand at (i 1, k). -/
theorem product_apply (a : FVec Ideal S64x6272 .bf16) (b : FVec Ideal S256x6272 .bf16) (i : S64x256.Idx) :
    matmul dot_S64x6272_S256x6272_S64x256_1_1_0_0_n_n none a b (constant S64x256 .f32 0x00000000#32) i
      = ∑ k : Fin 6272, a (ix2 (i 0) k) * b (ix2 (i 1) k) := by
  simp only [matmul]
  rw [Ideal.matmul_constant_zero_apply, ← Equiv.sum_comp (ValueIdx.contrEquiv1 dot_S64x6272_S256x6272_S64x256_1_1_0_0_n_n 6272 rfl rfl).symm]
  refine Finset.sum_congr rfl fun k _ => ?_
  have hk := ValueIdx.contrEquiv1_symm_val dot_S64x6272_S256x6272_S64x256_1_1_0_0_n_n 6272 rfl rfl k
  have el : dot_S64x6272_S256x6272_S64x256_1_1_0_0_n_n.lhsIdx i ((ValueIdx.contrEquiv1 dot_S64x6272_S256x6272_S64x256_1_1_0_0_n_n 6272 rfl rfl).symm k) = ix2 (i 0) k := funext fun x => Fin.ext (by
    match x with
    | ⟨0, _⟩ => exact lhs_row _ _
    | ⟨1, _⟩ => exact (lhs_contracted _ _).trans hk)
  have er : dot_S64x6272_S256x6272_S64x256_1_1_0_0_n_n.rhsIdx i ((ValueIdx.contrEquiv1 dot_S64x6272_S256x6272_S64x256_1_1_0_0_n_n 6272 rfl rfl).symm k) = ix2 (i 1) k := funext fun x => Fin.ext (by
    match x with
    | ⟨0, _⟩ => exact rhs_row _ _
    | ⟨1, _⟩ => exact (rhs_contracted _ _).trans hk)
  rw [el, er]
  rfl

/-- The bias row broadcast down the 64 rows of the tile, at entry `i`, is the bias row at (0, i 1). -/
theorem bias_rows_apply (β : FVec Ideal S1x256 .f32) (i : S64x256.Idx) :
    broadcastTo S64x256 β broadcasts_S1x256_S64x256 i = β (ix2 0 (i 1)) :=
  broadcastTo_apply β broadcasts_S1x256_S64x256 i (ix2 0 (i 1)) (fun x => match x with
    | ⟨0, _⟩ => by show 0 = if (1 : Nat) = 1 then 0 else (i 0).val; rw [if_pos rfl]
    | ⟨1, _⟩ => by show (i 1).val = if (256 : Nat) = 1 then 0 else (i 1).val; rw [if_neg (by decide)])

/-- Entry `i` of the stored tile, from the three loaded blocks. -/
theorem tile_apply (a : Vec Ideal S64x6272 .bf16) (b : Vec Ideal S256x6272 .f32) (β : Vec Ideal S1x256 .f32) (i : S64x256.Idx) :
    k0_pay1 a b β i = (∑ k : Fin 6272, a (ix2 (i 0) k) * b (ix2 (i 1) k)) + β (ix2 0 (i 1)) := by
  unfold k0_pay1
  rw [addf_apply, product_apply, bias_rows_apply, shapeCast_self, shapeCast_self]
  rfl

end Cert.KernelIdeal.Tile

end
-- ==== Proof.Entry.lean ====
/-
  What the kernel's windows find in memory. Before the grid runs, the host part of the program prepares two arrays:
  the bias laid out as one row of 12544 entries (the same entries in the same order), and the activations narrowed to
  the 16-bit format, which over the extended reals changes nothing. The weights are staged as they were passed in.
  Each window's block at grid point `t` is then a rectangle of one of the three arguments:
    * the activations' block is the whole array, at every point;
    * the weights' block is rows 256·t … 256·t + 255;
    * the bias's block is entries 256·t … 256·t + 255.
-/
import proofs.«414847_j19851338842267_3_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-- The three arguments, at their literal types. -/
abbrev acts (c : Dev nD) : FVec Ideal S64x6272 .f32 := m ((c : Thread nD τ).loc main_arg0)
abbrev weights (c : Dev nD) : FVec Ideal S12544x6272 .f32 := m ((c : Thread nD τ).loc main_arg1)
abbrev bias (c : Dev nD) : FVec Ideal S12544 .f32 := m ((c : Thread nD τ).loc main_arg2)

/-- The bias as the region finds it: the argument's entries laid out as one row. -/
theorem bias_row (c : Dev nD) :
    (V m c main_v0 : S1x12544.Idx → EReal) = shapeCast S1x12544 (bias m c) shapeCasts_S12544_S1x12544 := by
  dsimp only [Gen.V, Gen.hostOps0]; after_results; rfl

/-- The activations as the region finds them: the argument, narrowed. -/
theorem acts_narrowed (c : Dev nD) :
    (V m c main_v1 : FVec Ideal S64x6272 .bf16)
      = (truncf (F := Ideal) (s := S64x6272) .bf16 (acts m c) bitsLt_bf16_f32 : FVec Ideal S64x6272 .bf16) := by
  dsimp only [Gen.V, Gen.hostOps0]; after_results

/-- Which block each window takes at grid point `t`: the activations' always block (0, 0); the weights' block (t, 0);
    the bias's and the result's block (0, t). Decided over the 49 points. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activations' block at any point, read at `y`, is the argument at the same coordinates. -/
theorem acts_block (c : Dev nD) (t : Fin cfg0.N) (y : S64x6272.Idx) (i : S64x6272.Idx)
    (h0 : (i 0).val = (y 0).val) (h1 : (i 1).val = (y 1).val) :
    (iblk m c 0 t : Vec Ideal S64x6272 .bf16) y = acts m c i := by
  obtain ⟨e0, e1, -⟩ := block_indices t
  unfold iblk
  rw [View.read_apply]
  refine (congrFun (acts_narrowed m c) _).trans ?_
  show acts m c _ = acts m c i
  congr 1
  funext a
  apply Fin.ext
  match a with
  | ⟨0, _⟩ => show win0_0.index t (0 : Fin 2) * 64 + 1 * (y 0).val = (i 0).val; rw [e0, h0]; omega
  | ⟨1, _⟩ => show win0_0.index t (1 : Fin 2) * 6272 + 1 * (y 1).val = (i 1).val; rw [e1, h1]; omega

/-- The weights' block at point `t`, read at `y`, is the argument at row 256·t + y 0, same column. -/
theorem weights_block (c : Dev nD) (t : Fin cfg0.N) (y : S256x6272.Idx) (i : S12544x6272.Idx)
    (h0 : (i 0).val = 256 * t.val + (y 0).val) (h1 : (i 1).val = (y 1).val) :
    (iblk m c 1 t : Vec Ideal S256x6272 .f32) y = weights m c i := by
  obtain ⟨-, -, e0, e1, -⟩ := block_indices t
  unfold iblk
  rw [View.read_apply]
  refine (congrFun (V_main_arg1 m c) _).trans ?_
  show weights m c _ = weights m c i
  congr 1
  funext a
  apply Fin.ext
  match a with
  | ⟨0, _⟩ => show win0_1.index t (0 : Fin 2) * 256 + 1 * (y 0).val = (i 0).val; rw [e0, h0]; omega
  | ⟨1, _⟩ => show win0_1.index t (1 : Fin 2) * 6272 + 1 * (y 1).val = (i 1).val; rw [e1, h1]; omega

/-- The bias's block at point `t`, read at (0, q), is the argument at entry 256·t + q. -/
theorem bias_block (c : Dev nD) (t : Fin cfg0.N) (y : S1x256.Idx) (i : S12544.Idx)
    (h : (i 0).val = 256 * t.val + (y 1).val) :
    (iblk m c 2 t : Vec Ideal S1x256 .f32) y = bias m c i := by
  obtain ⟨-, -, -, -, e0, e1, -⟩ := block_indices t
  have hy0 : (y 0).val = 0 := by have := (y 0).isLt; simp at this; omega
  unfold iblk
  rw [View.read_apply]
  refine (congrFun (bias_row m c) _).trans ?_
  refine shapeCast_apply (bias m c) shapeCasts_S12544_S1x12544 _ i ?_
  rw [Shape.rowMajor_val_one, Shape.rowMajor_val_two, h]
  show 256 * t.val + (y 1).val = (win0_2.index t (0 : Fin 2) * 1 + 1 * (y 0).val) * 12544 + (win0_2.index t (1 : Fin 2) * 256 + 1 * (y 1).val)
  rw [e0, e1, hy0]; omega

end Cert.KernelIdeal.Entry

end
-- ==== Proof.Tiles.lean ====
/-
  From tiles to the result array. Grid point `t` writes back a 64 × 256 tile into columns 256·t … 256·t + 255 of the
  result. Entry (p, q) of that tile is (∑ k, a (p, k) · b (q, k)) + β (0, q) of the point's blocks; the activations'
  block is the whole argument, the weights' block is rows 256·t + q of the weights, the bias's block entry 256·t + q of
  the bias: so the tile is the restriction of the dense layer to those columns. The 49 tiles cover all 12544 columns
  (column n lies in tile n / 256), so the array the run leaves is the dense layer of the three arguments.
-/
import proofs.«414847_j19851338842267_3_alg».proof.Proof.Gen.KernelIdeal.Value
import proofs.«414847_j19851338842267_3_alg».proof.Proof.Dense
import proofs.«414847_j19851338842267_3_alg».proof.Proof.Tile
import proofs.«414847_j19851338842267_3_alg».proof.Proof.Entry

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Entry Cert.KernelIdeal.Tile Cert.Dense

variable (m : (ℓ : Loc nD τ sig) → Buf (Elt Ideal) ℓ) (ρ : Dev nD → PrngReg)

theorem origin : (![0, 0] : Fin 2 → Nat) = fun _ => 0 := funext fun a => by fin_cases a <;> rfl

/-- The dense layer of the three arguments on core `c`. -/
abbrev result (c : Dev nD) : Buf (Elt Ideal) ((c : Thread nD τ).loc main_v2) :=
  dense (acts m c) (weights m c) (bias m c)

/-- Entry `j` of tile `t` lands at row j 0, column 256·t + j 1 of the result. -/
theorem landing (t : Fin cfg0.N) (j : S64x256.Idx) :
    ((((cfg0.win 3).blk t).view.emb j) (0 : Fin 2)).val = (j 0).val
    ∧ ((((cfg0.win 3).blk t).view.emb j) (1 : Fin 2)).val = 256 * t.val + (j 1).val := by
  obtain ⟨-, -, -, -, -, -, e0, e1⟩ := block_indices t
  constructor
  · show win0_3.index t (0 : Fin 2) * 64 + 1 * (j 0).val = _; rw [e0]; omega
  · show win0_3.index t (1 : Fin 2) * 256 + 1 * (j 1).val = _; rw [e1]; omega

/-- What point `t` writes back is the dense layer read through the point's block of the result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S64x6272) origin, View.ld_unit_zero (S := S256x6272) origin,
    View.ld_unit_zero (S := S1x256) origin]
  funext j
  obtain ⟨l0, l1⟩ := landing t j
  show k0_pay1 (iblk m c 0 t) (iblk m c 1 t) (iblk m c 2 t) j
    = dense (acts m c) (weights m c) (bias m c) (((cfg0.win 3).blk t).view.emb j)
  refine (tile_apply (iblk m c 0 t) (iblk m c 1 t) (iblk m c 2 t) j).trans ?_
  unfold dense
  refine congrArg₂ (· + ·) (Finset.sum_congr rfl fun k _ => congrArg₂ (· * ·) ?_ ?_) ?_
  · exact acts_block m c t _ _ l0 rfl
  · exact weights_block m c t _ _ l1 rfl
  · exact bias_block m c t _ _ l1

/-- An index of the result is in point `t`'s block iff each coordinate is in the block's range on its axis. -/
theorem mem_blk (t : Fin cfg0.N) (i : S64x12544.Idx) :
    i ∈ ((cfg0.win 3).blk t).view.set ↔ ∀ a : Fin 2, win0_3.index t a * S64x256.size a ≤ (i a).val ∧ (i a).val < win0_3.index t a * S64x256.size a + S64x256.size a := by
  show i ∈ ((View.whole main_v2).slice (win0_3.rect t)).set ↔ _
  rw [View.set_slice_whole, Rect.mem_set_unit]
  exact Iff.rfl

/-- Column n of the result lies in tile n / 256: the tiles cover the array. -/
theorem covered (i : S64x12544.Idx) :
    ∃ t : Fin cfg0.N, (cfg0.win 3).flush t = true ∧ i ∈ ((cfg0.win 3).blk t).view.set := by
  have h0 : (i 0).val < 64 := (i 0).isLt
  have h1 : (i 1).val < 12544 := (i 1).isLt
  have hN : cfg0.N = 49 := N_0
  let t : Fin cfg0.N := ⟨(i 1).val / 256, by rw [hN]; omega⟩
  have ht : t.val = (i 1).val / 256 := rfl
  obtain ⟨-, -, -, -, -, -, e0, e1⟩ := block_indices t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 256 ≤ (i 1).val ∧ (i 1).val < win0_3.index t (1 : Fin 2) * 256 + 256; rw [e1, ht]; omega

/-- The result array after the run is the dense layer of the arguments. -/
theorem final (c : Dev nD) : (dats m 0 c).arrAt 3 cfg0.N = result m c :=
  (dats m 0 c).arrAt_eq_of_cover 3 (result m c) (fun t _ => flushed_eq m c t) covered

/-- The kernel's run, read: every weakly fair execution ends with the result array at the dense layer of the
    arguments, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.KernelIdeal.Tiles

end
-- ==== Proof.lean ====
/-
  A dense layer, kernel against reference, over the extended reals.

  Both programs take activations `x` (64 × 6272), weights `w` (12544 × 6272) and a bias `b` (12544) and return the
  64 × 12544 array whose entry (p, n) is (∑ k, x (p, k) · w (n, k)) + b n (`Cert.Dense.dense`).

  The reference forms it in one piece: the product of `x` with the transposed weights, plus the bias broadcast along the
  rows (`RefDense.reference_is_dense`). The kernel forms it tile by tile over a grid of 49 points: point `t` multiplies
  the whole of `x` (narrowed to 16 bits on the host, the identity on the extended reals) with weight rows
  256·t … 256·t + 255 (narrowed likewise), adds the matching bias entries, and writes the 64 × 256 tile into columns
  256·t … 256·t + 255 (`Tile.tile_apply`, `Tiles.flushed_eq`); the tiles cover the result (`Tiles.covered`), so the
  array the kernel leaves is the same function of the arguments (`Tiles.run`). The products and the sums are formed in
  the same order on both sides, so the precondition (finite inputs) is never opened.

  The kernel's idealization rewrote no operation, so `preserves` has nothing to state.
-/
import proofs.«414847_j19851338842267_3_alg».proof.Defs
import proofs.«414847_j19851338842267_3_alg».proof.Proof.Gen.Kernel
import proofs.«414847_j19851338842267_3_alg».proof.Proof.Gen.Kernel.Skeleton
import proofs.«414847_j19851338842267_3_alg».proof.Proof.Gen.Kernel.Launch
import proofs.«414847_j19851338842267_3_alg».proof.Proof.Gen.Kernel.Points
import proofs.«414847_j19851338842267_3_alg».proof.Proof.Gen.Kernel.Frame
import proofs.«414847_j19851338842267_3_alg».proof.Proof.Gen.KernelIdeal
import proofs.«414847_j19851338842267_3_alg».proof.Proof.Gen.KernelIdeal.Skeleton
import proofs.«414847_j19851338842267_3_alg».proof.Proof.Gen.KernelIdeal.Launch
import proofs.«414847_j19851338842267_3_alg».proof.Proof.Gen.KernelIdeal.Points
import proofs.«414847_j19851338842267_3_alg».proof.Proof.Gen.KernelIdeal.Frame
import proofs.«414847_j19851338842267_3_alg».proof.Proof.Gen.ReferenceIdeal
import proofs.«414847_j19851338842267_3_alg».proof.Proof.Gen.Pre_finite_inputs
import proofs.«414847_j19851338842267_3_alg».proof.Proof.Gen.KernelIdeal.Value
import proofs.«414847_j19851338842267_3_alg».proof.Proof.Gen.ReferenceIdeal.Run
import proofs.«414847_j19851338842267_3_alg».proof.Proof.Gen.ReferenceIdeal.Read
import proofs.«414847_j19851338842267_3_alg».proof.Proof.RefDense
import proofs.«414847_j19851338842267_3_alg».proof.Proof.Tiles
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the dense layer of those arguments in
    their result arrays. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefDense.reference_is_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
